-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg6 : FVec F S128x2 .f32) (main_arg7 : FVec F S128x2 .f32) (main_arg8 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x2 .f32 := Host.absf main_arg6
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  let main_v24 : FVec F S128x2 .f32 := Host.absf main_arg7
  let main_cst_8 : FVec F S_ .f32 := constant S_ .f32 0x7F800000#32
  let main_v25 : FVec F S128x2 .f32 := broadcastInDim S128x2 ![] bcast_S_S128x2 main_cst_8
  let main_v26 : IVec S128x2 1 := cmpf .olt main_v24 main_v25
  let main_c_9 : IVec S_ 1 := constantI S_ 1 1#1
  let main_v27 : IVec S_ 1 := (fun x v => Host.reduce IntOp.andi x v reducesTo_S128x2_S_d0_1 h_S_) main_v26 main_c_9
  let main_v28 : IVec S_ 1 := andi main_v23 main_v27
  let main_v29 : FVec F S2 .f32 := Host.absf main_arg8
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x2 .f32) (main_arg7 : FVec F S128x2 .f32) (main_arg8 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S1x128 : Shape := ⟨2, ![1, 128]⟩
abbrev S100000x2 : Shape := ⟨2, ![100000, 2]⟩
abbrev S5000x2 : Shape := ⟨2, ![5000, 2]⟩
abbrev S1x2 : Shape := ⟨2, ![1, 2]⟩

abbrev nBuf : Space → Nat
  | .hbm => 61
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .f32⟩
  | .hbm, ⟨55, _⟩ => ⟨S100000, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x2, .f32⟩
  | .local _ .vmem, ⟨14, _⟩ => ⟨S128x2, .f32⟩
  | .local _ .vmem, ⟨15, _⟩ => ⟨S2, .f32⟩
  | .local _ .vmem, ⟨16, _⟩ => ⟨S5000x2, .f32⟩
  | .local _ .vmem, ⟨17, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_6 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S128x2.size a
  hwx1_2 : ∀ i : grid1.Coords, EltTy.bits .f32 = 32 ∨ (Rect.block (s := S128x2) S128x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2.size a ≤ S2.size a
  hwx1_4 : ∀ i : grid1.Coords, EltTy.bits .f32 = 32 ∨ (Rect.block (s := S2) S2.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x2.size a ≤ S100000x2.size a
  hwx1_5 : ∀ i : grid1.Coords, EltTy.bits .f32 = 32 ∨ (Rect.block (s := S100000x2) S5000x2.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S5000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x2 : Shape := ⟨2, ![100000, 2]⟩
abbrev S1x2 : Shape := ⟨2, ![1, 2]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S128x2, .f32⟩
  | .hbm, ⟨8, _⟩ => ⟨S2, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x2, .f32⟩
  | .hbm, ⟨69, _⟩ => ⟨S100000x2, .f32⟩
  | .hbm, ⟨70, _⟩ => ⟨S100000x2, .f32⟩
  | .hbm, ⟨71, _⟩ => ⟨S1x2, .f32⟩
  | .hbm, ⟨72, _⟩ => ⟨S100000x2, .f32⟩
  | .hbm, ⟨73, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.Spec.lean ====
/-
  The function both programs compute, written index by index over the extended reals.

  A layer takes the node features `X` [100000,128], the mean of each node's incoming neighbours `N` [100000,128]
  (whatever array that is: the aggregation is carried by both programs as the same host operations and is never
  opened here), two weight matrices and a bias, and gives, at node `r` and output column `q`,

      (Σ_k X[r,k]·W0[k,q]  +  Σ_k N[r,k]·W1[k,q])  +  B[q].

  The first layer has 128 output columns and clamps the entry below at the literal zero word; the second has 2
  output columns and no clamp. Sums are finite sums over the 128 contracted positions in their natural order, so no
  law of the extended reals beyond reading each product at its index is needed, and no finiteness.
-/
import Idealize.ShloMosaic.PureOps.Ideal
import Idealize.ShloMosaic.Lib.ValueIdx

noncomputable section

namespace Cert.LayerSpec

open Idealize.ShloMosaic Idealize.ShloMosaic.ValueIdx

/-- Entry (r, q) of the first layer: the two 128-term dot products, the bias, clamped below at zero. -/
def hiddenEntry (X N : (⟨2, ![100000, 128]⟩ : Shape).Idx → EReal) (W0 W1 : (⟨2, ![128, 128]⟩ : Shape).Idx → EReal)
    (B : (⟨1, ![128]⟩ : Shape).Idx → EReal) (r : Fin 100000) (q : Fin 128) : EReal :=
  max (((∑ k : Fin 128, X (ix2 r k) * W0 (ix2 k q)) + (∑ k : Fin 128, N (ix2 r k) * W1 (ix2 k q))) + B (ix1 q))
    (Ideal.ofBits .f32 0x00000000#32)

/-- The first layer's whole [100000,128] result. -/
def hidden (X N : (⟨2, ![100000, 128]⟩ : Shape).Idx → EReal) (W0 W1 : (⟨2, ![128, 128]⟩ : Shape).Idx → EReal)
    (B : (⟨1, ![128]⟩ : Shape).Idx → EReal) : (⟨2, ![100000, 128]⟩ : Shape).Idx → EReal :=
  fun i => hiddenEntry X N W0 W1 B ⟨(i 0).val, (i 0).isLt⟩ ⟨(i 1).val, (i 1).isLt⟩

/-- The first layer read at an index whose coordinates are (r, q). -/
theorem hidden_at (X N : (⟨2, ![100000, 128]⟩ : Shape).Idx → EReal) (W0 W1 : (⟨2, ![128, 128]⟩ : Shape).Idx → EReal)
    (B : (⟨1, ![128]⟩ : Shape).Idx → EReal) (i : (⟨2, ![100000, 128]⟩ : Shape).Idx) (r : Fin 100000) (q : Fin 128)
    (h0 : (i 0).val = r.val) (h1 : (i 1).val = q.val) : hidden X N W0 W1 B i = hiddenEntry X N W0 W1 B r q := by
  unfold hidden
  rw [show (⟨(i 0).val, (i 0).isLt⟩ : Fin 100000) = r from Fin.ext h0, show (⟨(i 1).val, (i 1).isLt⟩ : Fin 128) = q from Fin.ext h1]

/-- Entry (r, q) of the second layer: the two 128-term dot products and the bias. -/
def logitEntry (H N : (⟨2, ![100000, 128]⟩ : Shape).Idx → EReal) (W0 W1 : (⟨2, ![128, 2]⟩ : Shape).Idx → EReal)
    (B : (⟨1, ![2]⟩ : Shape).Idx → EReal) (r : Fin 100000) (q : Fin 2) : EReal :=
  ((∑ k : Fin 128, H (ix2 r k) * W0 (ix2 k q)) + (∑ k : Fin 128, N (ix2 r k) * W1 (ix2 k q))) + B (ix1 q)

/-- The second layer's whole [100000,2] result. -/
def logits (H N : (⟨2, ![100000, 128]⟩ : Shape).Idx → EReal) (W0 W1 : (⟨2, ![128, 2]⟩ : Shape).Idx → EReal)
    (B : (⟨1, ![2]⟩ : Shape).Idx → EReal) : (⟨2, ![100000, 2]⟩ : Shape).Idx → EReal :=
  fun i => logitEntry H N W0 W1 B ⟨(i 0).val, (i 0).isLt⟩ ⟨(i 1).val, (i 1).isLt⟩

/-- The second layer read at an index whose coordinates are (r, q). -/
theorem logits_at (H N : (⟨2, ![100000, 128]⟩ : Shape).Idx → EReal) (W0 W1 : (⟨2, ![128, 2]⟩ : Shape).Idx → EReal)
    (B : (⟨1, ![2]⟩ : Shape).Idx → EReal) (i : (⟨2, ![100000, 2]⟩ : Shape).Idx) (r : Fin 100000) (q : Fin 2)
    (h0 : (i 0).val = r.val) (h1 : (i 1).val = q.val) : logits H N W0 W1 B i = logitEntry H N W0 W1 B r q := by
  unfold logits
  rw [show (⟨(i 0).val, (i 0).isLt⟩ : Fin 100000) = r from Fin.ext h0, show (⟨(i 1).val, (i 1).isLt⟩ : Fin 2) = q from Fin.ext h1]

end Cert.LayerSpec

end
-- ==== Proof.Body0.lean ====
/-
  What the first kernel's body stores, read at one index of its [5000,128] output block.

  The body casts its four matrix operands to bf16 (the identity on extended reals), multiplies the feature block by the
  self weights and the neighbour-mean block by the neighbour weights on the matrix unit into zero accumulators, adds the
  two products, adds the bias row broadcast down the 5000 rows, and clamps at zero. Read at (p, q) that is
  `max ((Σ_k x0[p,k]·w0[k,q] + Σ_k x1[p,k]·w1[k,q]) + b[q]) 0`; and when the two row blocks are rows
  5000·T … 5000·T+4999 of whole arrays, it is entry (5000·T + p, q) of the first layer of those arrays.
-/
import proofs.«135674_j43937515438448_1_alg».proof.Proof.Gen.KernelIdeal.Skeleton
import proofs.«135674_j43937515438448_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body0

open Cert.KernelIdeal Cert.KernelIdeal.Gen Idealize.ShloMosaic Idealize.ShloMosaic.ValueIdx Cert.LayerSpec

/-! ## The [5000,128]·[128,128] product at an index: row p of the left operand against column q of the right -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product into a zero accumulator, at (p, q): the 128-term dot product of row p and column q. -/
theorem product_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias as the body uses it — viewed as one row [1,128], then broadcast down the rows — at (p, q) is b[q]. -/
theorem bias_apply (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_apply _ broadcasts_S1x128_S5000x128 (ix2 p q) (ix2 (⟨0, by decide⟩ : Fin 1) q) (fun a => by
    match a with
    | ⟨0, _⟩ => rfl
    | ⟨1, _⟩ => rfl)]
  rw [shapeCast_addUnit_apply]
  exact congrArg b (funext fun a => by match a with | ⟨0, _⟩ => rfl)

/-- The stored payload at (p, q). -/
theorem payload_apply (x0 x1 : Vec Ideal S5000x128 .f32) (w0 w1 : Vec Ideal S128x128 .f32) (b : Vec Ideal S128 .f32)
    (p : Fin 5000) (q : Fin 128) :
    k0_pay1 (F := Ideal) x0 x1 w0 w1 b (ix2 p q)
      = max (((∑ k : Fin 128, x0 (ix2 p k) * w0 (ix2 k q)) + (∑ k : Fin 128, x1 (ix2 p k) * w1 (ix2 k q))) + b (ix1 q))
          (Ideal.ofBits .f32 0x00000000#32) := by
  unfold k0_pay1
  simp only [shapeCast_self]
  show max ((matmul (F := Ideal) (φ₁ := .bf16) (φ₂ := .bf16) dot_S5000x128_S128x128_S5000x128_1_0_0_1_n_n none x0 w0 (constant (F := Ideal) S5000x128 .f32 0x00000000#32) (ix2 p q)
        + matmul (F := Ideal) (φ₁ := .bf16) (φ₂ := .bf16) dot_S5000x128_S128x128_S5000x128_1_0_0_1_n_n none x1 w1 (constant (F := Ideal) S5000x128 .f32 0x00000000#32) (ix2 p q))
      + broadcastTo S5000x128 (shapeCast S1x128 b shapeCasts_S128_S1x128) broadcasts_S1x128_S5000x128 (ix2 p q))
    (Ideal.ofBits .f32 0x00000000#32) = _
  rw [product_apply, product_apply, bias_apply]

/-- With the two row blocks sitting at rows 5000·T … of whole arrays `X`, `N`, the payload at (p, q) is the first
    layer's entry (5000·T + p, q). -/
theorem payload_eq_hidden (X N : Vec Ideal S100000x128 .f32) (x0 x1 : Vec Ideal S5000x128 .f32)
    (w0 w1 : Vec Ideal S128x128 .f32) (b : Vec Ideal S128 .f32) (T : Nat) (p : Fin 5000) (q : Fin 128)
    (hr : 5000 * T + p.val < 100000)
    (hx0 : ∀ k : Fin 128, x0 (ix2 p k) = X (ix2 (⟨5000 * T + p.val, hr⟩ : Fin 100000) k))
    (hx1 : ∀ k : Fin 128, x1 (ix2 p k) = N (ix2 (⟨5000 * T + p.val, hr⟩ : Fin 100000) k)) :
    k0_pay1 (F := Ideal) x0 x1 w0 w1 b (ix2 p q) = hiddenEntry X N w0 w1 b ⟨5000 * T + p.val, hr⟩ q := by
  rw [payload_apply]
  unfold hiddenEntry
  simp only [hx0, hx1]

end Cert.KernelIdeal.Body0

end
-- ==== Proof.Region0.lean ====
/-
  The first pallas_call's output array after its twenty grid points, from whatever its five operand arrays hold when
  the region is entered.

  Point t fetches rows 5000·t … 5000·t+4999 of the features and of the neighbour means (all 128 columns), the two
  weight matrices and the bias whole, and writes back rows 5000·t … 5000·t+4999 of the output. What it writes is the
  body's payload, which at (p, q) is the first layer's entry (5000·t + p, q) of the whole operand arrays; so every
  point writes back its own block of ONE whole-array function, the blocks tile the 100000 rows (row r lies in block
  r / 5000), and the array ends holding that function.
-/
import proofs.«135674_j43937515438448_1_alg».proof.Proof.Gen.KernelIdeal.Frame
import proofs.«135674_j43937515438448_1_alg».proof.Proof.Body0
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx Cert.LayerSpec
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the two row-blocked inputs and the output are at block (t, 0), the weights
    and the bias at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem point_lt (t : Fin cfg0.N) : t.val < 20 := t.isLt

/-! ## Each window's block at a point, read off its array -/

/-- The feature block at point t is rows 5000·t … of the feature array. -/
theorem features_block (c : Dev nD) (t : Fin cfg0.N) (p : Fin 5000) (k : Fin 128) (hr : 5000 * t.val + p.val < 100000) :
    (iblk0 V c 0 t : Vec Ideal S5000x128 .f32) (ix2 p k) = (V c main_arg0 : Vec Ideal S100000x128 .f32) (ix2 (⟨5000 * t.val + p.val, hr⟩ : Fin 100000) k) := by
  obtain ⟨e0, e1, -⟩ := index_facts t
  show V c main_arg0 (((cfg0.win 0).blk t).view.emb (ix2 p k)) = V c main_arg0 _
  refine congrArg (V c main_arg0) (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- The neighbour-mean block at point t is rows 5000·t … of the neighbour-mean array. -/
theorem means_block (c : Dev nD) (t : Fin cfg0.N) (p : Fin 5000) (k : Fin 128) (hr : 5000 * t.val + p.val < 100000) :
    (iblk0 V c 1 t : Vec Ideal S5000x128 .f32) (ix2 p k) = (V c main_v18 : Vec Ideal S100000x128 .f32) (ix2 (⟨5000 * t.val + p.val, hr⟩ : Fin 100000) k) := by
  obtain ⟨-, -, e0, e1, -⟩ := index_facts t
  show V c main_v18 (((cfg0.win 1).blk t).view.emb (ix2 p k)) = V c main_v18 _
  refine congrArg (V c main_v18) (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- The self-weight window's one block is the whole matrix. -/
theorem self_weights_block (c : Dev nD) (t : Fin cfg0.N) :
    (iblk0 V c 2 t : Vec Ideal S128x128 .f32) = (V c main_arg3 : Vec Ideal S128x128 .f32) := by
  obtain ⟨-, -, -, -, e0, e1, -⟩ := index_facts t
  funext y
  show V c main_arg3 (((cfg0.win 2).blk t).view.emb y) = V c main_arg3 y
  refine congrArg (V c main_arg3) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The neighbour-weight window's one block is the whole matrix. -/
theorem neigh_weights_block (c : Dev nD) (t : Fin cfg0.N) :
    (iblk0 V c 3 t : Vec Ideal S128x128 .f32) = (V c main_arg4 : Vec Ideal S128x128 .f32) := by
  obtain ⟨-, -, -, -, -, -, e0, e1, -⟩ := index_facts t
  funext y
  show V c main_arg4 (((cfg0.win 3).blk t).view.emb y) = V c main_arg4 y
  refine congrArg (V c main_arg4) (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias window's one block is the whole vector. -/
theorem bias_block (c : Dev nD) (t : Fin cfg0.N) :
    (iblk0 V c 4 t : Vec Ideal S128 .f32) = (V c main_arg5 : Vec Ideal S128 .f32) := by
  obtain ⟨-, -, -, -, -, -, -, -, e0, -⟩ := index_facts t
  funext y
  show V c main_arg5 (((cfg0.win 4).blk t).view.emb y) = V c main_arg5 y
  refine congrArg (V c main_arg5) (funext fun a => Fin.ext ?_)
  match a with
  | ⟨0, _⟩ => show win0_4.index t (0 : Fin 1) * 128 + 1 * (y 0).val = (y 0).val; omega

/-! ## What a point writes back, the cover, and the array -/

/-- The whole-array function the region leaves: the first layer of its operand arrays as entered. -/
abbrev result (c : Dev nD) : Vec Ideal S100000x128 .f32 :=
  hidden (V c main_arg0) (V c main_v18) (V c main_arg3) (V c main_arg4) (V c main_arg5)

/-- What point t writes back is block t of that function. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero zero2]
  simp only [View.ld_unit_zero (S := S5000x128) zero2, View.ld_unit_zero (S := S128x128) zero2, View.ld_unit_zero (S := S128) zero1]
  rw [self_weights_block V c t, neigh_weights_block V c t, bias_block V c t]
  obtain ⟨-, -, -, -, -, -, -, -, -, e0, e1⟩ := index_facts t
  have ht := point_lt t
  funext j
  obtain ⟨p, q, rfl⟩ : ∃ (p : Fin 5000) (q : Fin 128), j = ix2 p q := ⟨j 0, j 1, eq_ix2 j⟩
  have hp := p.isLt
  have hr : 5000 * t.val + p.val < 100000 := by omega
  show k0_pay1 (F := Ideal) (iblk0 V c 0 t) (iblk0 V c 1 t) (V c main_arg3) (V c main_arg4) (V c main_arg5) (ix2 p q)
    = result V c (((cfg0.win 5).blk t).view.emb (ix2 p q))
  rw [Body0.payload_eq_hidden (V c main_arg0) (V c main_v18) (iblk0 V c 0 t) (iblk0 V c 1 t) (V c main_arg3) (V c main_arg4) (V c main_arg5) t.val p q hr
    (fun k => features_block V c t p k hr) (fun k => means_block V c t p k hr)]
  refine (hidden_at _ _ _ _ _ _ ⟨5000 * t.val + p.val, hr⟩ q ?_ ?_).symm
  · show win0_5.index t (0 : Fin 2) * 5000 + 1 * p.val = 5000 * t.val + p.val; omega
  · show win0_5.index t (1 : Fin 2) * 128 + 1 * q.val = q.val; omega

/-- An index of the output array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v19).slice (win0_5.rect t)).set ↔ _
  rw [View.set_slice_whole, Rect.mem_set_unit]
  exact Iff.rfl

/-- Row r is in the block of point r / 5000: the blocks tile the array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 := ⟨⟨(i 0).val / 5000, by show _ < 20; omega⟩, rfl⟩
  obtain ⟨-, -, -, -, -, -, -, -, -, e0, e1⟩ := index_facts t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the region: the first layer of the operand arrays as the region found them. -/
theorem final (c : Dev nD) : (dat0 V c).arrAt 5 cfg0.N = result V c :=
  (dat0 V c).arrAt_eq_of_cover 5 (result V c) (fun t _ => flushed_eq V c t) cover

end Cert.KernelIdeal.Region0

end
-- ==== Proof.Body1.lean ====
/-
  What the second kernel's body stores, read at one index of its [5000,2] output block.

  The body multiplies the block of hidden activations by the [128,2] self weights and the block of their neighbour
  means by the [128,2] neighbour weights (bf16 casts: the identity on extended reals; zero accumulators), adds the two
  products and the bias row broadcast down the rows; there is no clamp. Read at (p, q) that is
  `(Σ_k h[p,k]·w0[k,q] + Σ_k n[p,k]·w1[k,q]) + b[q]`; with the two row blocks at rows 5000·T … of whole arrays it is
  entry (5000·T + p, q) of the second layer of those arrays.
-/
import proofs.«135674_j43937515438448_1_alg».proof.Proof.Gen.KernelIdeal.Skeleton
import proofs.«135674_j43937515438448_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body1

open Cert.KernelIdeal Cert.KernelIdeal.Gen Idealize.ShloMosaic Idealize.ShloMosaic.ValueIdx Cert.LayerSpec

/-! ## The [5000,128]·[128,2] product at an index -/

theorem lhs_0 (i : S5000x2.Idx) (q : dot_S5000x128_S128x2_S5000x2_1_0_0_1_n_n.contr.Idx) :
    (dot_S5000x128_S128x2_S5000x2_1_0_0_1_n_n.lhsIdx i q 0).val = (i 0).val := by
  unfold DotDims.lhsIdx
  rw [dif_neg (show ¬(0 : Fin S5000x128.rank) ∈ dot_S5000x128_S128x2_S5000x2_1_0_0_1_n_n.lhsBatch by decide), dif_pos (show (0 : Fin S5000x128.rank) ∈ dot_S5000x128_S128x2_S5000x2_1_0_0_1_n_n.lhsNonContracting by decide)]
  rfl
theorem lhs_1 (i : S5000x2.Idx) (q : dot_S5000x128_S128x2_S5000x2_1_0_0_1_n_n.contr.Idx) :
    (dot_S5000x128_S128x2_S5000x2_1_0_0_1_n_n.lhsIdx i q 1).val = (q ⟨0, by decide⟩).val :=
  dot_S5000x128_S128x2_S5000x2_1_0_0_1_n_n.lhsIdx_val_of_single rfl i q
theorem rhs_0 (i : S5000x2.Idx) (q : dot_S5000x128_S128x2_S5000x2_1_0_0_1_n_n.contr.Idx) :
    (dot_S5000x128_S128x2_S5000x2_1_0_0_1_n_n.rhsIdx i q 0).val = (q ⟨0, by decide⟩).val :=
  dot_S5000x128_S128x2_S5000x2_1_0_0_1_n_n.rhsIdx_val_of_single rfl i q
theorem rhs_1 (i : S5000x2.Idx) (q : dot_S5000x128_S128x2_S5000x2_1_0_0_1_n_n.contr.Idx) :
    (dot_S5000x128_S128x2_S5000x2_1_0_0_1_n_n.rhsIdx i q 1).val = (i 1).val := by
  unfold DotDims.rhsIdx
  rw [dif_neg (show ¬(1 : Fin S128x2.rank) ∈ dot_S5000x128_S128x2_S5000x2_1_0_0_1_n_n.rhsBatch by decide), dif_pos (show (1 : Fin S128x2.rank) ∈ dot_S5000x128_S128x2_S5000x2_1_0_0_1_n_n.rhsNonContracting by decide)]
  rfl

/-- The product into a zero accumulator at (p, q): the 128-term dot product of row p and column q. -/
theorem product_apply (l : FVec Ideal S5000x128 .bf16) (r : FVec Ideal S128x2 .bf16) (p : Fin 5000) (q : Fin 2) :
    matmul dot_S5000x128_S128x2_S5000x2_1_0_0_1_n_n none l r (constant S5000x2 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x2_S5000x2_1_0_0_1_n_n 128 rfl rfl).symm]
  refine Finset.sum_congr rfl fun k _ => ?_
  have hk := ValueIdx.contrEquiv1_symm_val dot_S5000x128_S128x2_S5000x2_1_0_0_1_n_n 128 rfl rfl k
  have el : dot_S5000x128_S128x2_S5000x2_1_0_0_1_n_n.lhsIdx (ix2 p q) ((ValueIdx.contrEquiv1 dot_S5000x128_S128x2_S5000x2_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x2_S5000x2_1_0_0_1_n_n.rhsIdx (ix2 p q) ((ValueIdx.contrEquiv1 dot_S5000x128_S128x2_S5000x2_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The two-entry bias, viewed as one row [1,2] and broadcast down the rows, at (p, q) is b[q]. -/
theorem bias_apply (b : Vec Ideal S2 .f32) (p : Fin 5000) (q : Fin 2) :
    broadcastTo S5000x2 (shapeCast S1x2 b shapeCasts_S2_S1x2) broadcasts_S1x2_S5000x2 (ix2 p q) = b (ix1 q) := by
  rw [broadcastTo_apply _ broadcasts_S1x2_S5000x2 (ix2 p q) (ix2 (⟨0, by decide⟩ : Fin 1) q) (fun a => by
    match a with
    | ⟨0, _⟩ => rfl
    | ⟨1, _⟩ => rfl)]
  rw [shapeCast_addUnit_apply]
  exact congrArg b (funext fun a => by match a with | ⟨0, _⟩ => rfl)

/-- The stored payload at (p, q). -/
theorem payload_apply (x0 x1 : Vec Ideal S5000x128 .f32) (w0 w1 : Vec Ideal S128x2 .f32) (b : Vec Ideal S2 .f32)
    (p : Fin 5000) (q : Fin 2) :
    k1_pay1 (F := Ideal) x0 x1 w0 w1 b (ix2 p q)
      = ((∑ k : Fin 128, x0 (ix2 p k) * w0 (ix2 k q)) + (∑ k : Fin 128, x1 (ix2 p k) * w1 (ix2 k q))) + b (ix1 q) := by
  unfold k1_pay1
  simp only [shapeCast_self]
  show (matmul (F := Ideal) (φ₁ := .bf16) (φ₂ := .bf16) dot_S5000x128_S128x2_S5000x2_1_0_0_1_n_n none x0 w0 (constant (F := Ideal) S5000x2 .f32 0x00000000#32) (ix2 p q)
        + matmul (F := Ideal) (φ₁ := .bf16) (φ₂ := .bf16) dot_S5000x128_S128x2_S5000x2_1_0_0_1_n_n none x1 w1 (constant (F := Ideal) S5000x2 .f32 0x00000000#32) (ix2 p q))
      + broadcastTo S5000x2 (shapeCast S1x2 b shapeCasts_S2_S1x2) broadcasts_S1x2_S5000x2 (ix2 p q) = _
  rw [product_apply, product_apply, bias_apply]

/-- With the two row blocks sitting at rows 5000·T … of whole arrays `H`, `N`, the payload at (p, q) is the second
    layer's entry (5000·T + p, q). -/
theorem payload_eq_logits (H N : Vec Ideal S100000x128 .f32) (x0 x1 : Vec Ideal S5000x128 .f32)
    (w0 w1 : Vec Ideal S128x2 .f32) (b : Vec Ideal S2 .f32) (T : Nat) (p : Fin 5000) (q : Fin 2)
    (hr : 5000 * T + p.val < 100000)
    (hx0 : ∀ k : Fin 128, x0 (ix2 p k) = H (ix2 (⟨5000 * T + p.val, hr⟩ : Fin 100000) k))
    (hx1 : ∀ k : Fin 128, x1 (ix2 p k) = N (ix2 (⟨5000 * T + p.val, hr⟩ : Fin 100000) k)) :
    k1_pay1 (F := Ideal) x0 x1 w0 w1 b (ix2 p q) = logitEntry H N w0 w1 b ⟨5000 * T + p.val, hr⟩ q := by
  rw [payload_apply]
  unfold logitEntry
  simp only [hx0, hx1]

end Cert.KernelIdeal.Body1

end
-- ==== Proof.Region1.lean ====
/-
  The second pallas_call's output array after its twenty grid points, from whatever its five operand arrays hold when
  the region is entered.

  Point t fetches rows 5000·t … 5000·t+4999 of the hidden activations and of their neighbour means (all 128 columns),
  the two [128,2] weight matrices and the two-entry bias whole, and writes back rows 5000·t … 5000·t+4999 of the
  [100000,2] result. What it writes at (p, q) is the second layer's entry (5000·t + p, q) of the whole operand arrays:
  every point writes back its own block of one whole-array function, row r lies in block r / 5000, and the array ends
  holding that function.
-/
import proofs.«135674_j43937515438448_1_alg».proof.Proof.Gen.KernelIdeal.Frame
import proofs.«135674_j43937515438448_1_alg».proof.Proof.Body1
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx Cert.LayerSpec
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the two row-blocked inputs and the output are at block (t, 0), the weights
    and the bias at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem point_lt (t : Fin cfg1.N) : t.val < 20 := t.isLt

/-! ## Each window's block at a point, read off its array -/

/-- The block of hidden activations at point t is rows 5000·t … of their array. -/
theorem hidden_block (c : Dev nD) (t : Fin cfg1.N) (p : Fin 5000) (k : Fin 128) (hr : 5000 * t.val + p.val < 100000) :
    (iblk1 V c 0 t : Vec Ideal S5000x128 .f32) (ix2 p k) = (V c main_v19 : Vec Ideal S100000x128 .f32) (ix2 (⟨5000 * t.val + p.val, hr⟩ : Fin 100000) k) := by
  obtain ⟨e0, e1, -⟩ := index_facts t
  show V c main_v19 (((cfg1.win 0).blk t).view.emb (ix2 p k)) = V c main_v19 _
  refine congrArg (V c main_v19) (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * k.val = k.val; omega

/-- The neighbour-mean block at point t is rows 5000·t … of the neighbour-mean array. -/
theorem means_block (c : Dev nD) (t : Fin cfg1.N) (p : Fin 5000) (k : Fin 128) (hr : 5000 * t.val + p.val < 100000) :
    (iblk1 V c 1 t : Vec Ideal S5000x128 .f32) (ix2 p k) = (V c main_v38 : Vec Ideal S100000x128 .f32) (ix2 (⟨5000 * t.val + p.val, hr⟩ : Fin 100000) k) := by
  obtain ⟨-, -, e0, e1, -⟩ := index_facts t
  show V c main_v38 (((cfg1.win 1).blk t).view.emb (ix2 p k)) = V c main_v38 _
  refine congrArg (V c main_v38) (funext fun a => Fin.ext ?_)
  match a with
  | ⟨0, _⟩ => show win1_1.index t (0 : Fin 2) * 5000 + 1 * p.val = 5000 * t.val + p.val; omega
  | ⟨1, _⟩ => show win1_1.index t (1 : Fin 2) * 128 + 1 * k.val = k.val; omega

/-- The self-weight window's one block is the whole [128,2] matrix. -/
theorem self_weights_block (c : Dev nD) (t : Fin cfg1.N) :
    (iblk1 V c 2 t : Vec Ideal S128x2 .f32) = (V c main_arg6 : Vec Ideal S128x2 .f32) := by
  obtain ⟨-, -, -, -, e0, e1, -⟩ := index_facts t
  funext y
  show V c main_arg6 (((cfg1.win 2).blk t).view.emb y) = V c main_arg6 y
  refine congrArg (V c main_arg6) (funext fun a => Fin.ext ?_)
  match a with
  | ⟨0, _⟩ => show win1_2.index t (0 : Fin 2) * 128 + 1 * (y 0).val = (y 0).val; omega
  | ⟨1, _⟩ => show win1_2.index t (1 : Fin 2) * 2 + 1 * (y 1).val = (y 1).val; omega

/-- The neighbour-weight window's one block is the whole [128,2] matrix. -/
theorem neigh_weights_block (c : Dev nD) (t : Fin cfg1.N) :
    (iblk1 V c 3 t : Vec Ideal S128x2 .f32) = (V c main_arg7 : Vec Ideal S128x2 .f32) := by
  obtain ⟨-, -, -, -, -, -, e0, e1, -⟩ := index_facts t
  funext y
  show V c main_arg7 (((cfg1.win 3).blk t).view.emb y) = V c main_arg7 y
  refine congrArg (V c main_arg7) (funext fun a => Fin.ext ?_)
  match a with
  | ⟨0, _⟩ => show win1_3.index t (0 : Fin 2) * 128 + 1 * (y 0).val = (y 0).val; omega
  | ⟨1, _⟩ => show win1_3.index t (1 : Fin 2) * 2 + 1 * (y 1).val = (y 1).val; omega

/-- The bias window's one block is the whole two-entry vector. -/
theorem bias_block (c : Dev nD) (t : Fin cfg1.N) :
    (iblk1 V c 4 t : Vec Ideal S2 .f32) = (V c main_arg8 : Vec Ideal S2 .f32) := by
  obtain ⟨-, -, -, -, -, -, -, -, e0, -⟩ := index_facts t
  funext y
  show V c main_arg8 (((cfg1.win 4).blk t).view.emb y) = V c main_arg8 y
  refine congrArg (V c main_arg8) (funext fun a => Fin.ext ?_)
  match a with
  | ⟨0, _⟩ => show win1_4.index t (0 : Fin 1) * 2 + 1 * (y 0).val = (y 0).val; omega

/-! ## What a point writes back, the cover, and the array -/

/-- The whole-array function the region leaves: the second layer of its operand arrays as entered. -/
abbrev result (c : Dev nD) : Vec Ideal S100000x2 .f32 :=
  logits (V c main_v19) (V c main_v38) (V c main_arg6) (V c main_arg7) (V c main_arg8)

/-- What point t writes back is block t of that function. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128x2) zero2, View.ld_unit_zero (S := S2) zero1]
  rw [self_weights_block V c t, neigh_weights_block V c t, bias_block V c t]
  obtain ⟨-, -, -, -, -, -, -, -, -, e0, e1⟩ := index_facts t
  have ht := point_lt t
  funext j
  obtain ⟨p, q, rfl⟩ : ∃ (p : Fin 5000) (q : Fin 2), j = ix2 p q := ⟨j 0, j 1, eq_ix2 j⟩
  have hp := p.isLt
  have hr : 5000 * t.val + p.val < 100000 := by omega
  show k1_pay1 (F := Ideal) (iblk1 V c 0 t) (iblk1 V c 1 t) (V c main_arg6) (V c main_arg7) (V c main_arg8) (ix2 p q)
    = result V c (((cfg1.win 5).blk t).view.emb (ix2 p q))
  rw [Body1.payload_eq_logits (V c main_v19) (V c main_v38) (iblk1 V c 0 t) (iblk1 V c 1 t) (V c main_arg6) (V c main_arg7) (V c main_arg8) t.val p q hr
    (fun k => hidden_block V c t p k hr) (fun k => means_block V c t p k hr)]
  refine (logits_at _ _ _ _ _ _ ⟨5000 * t.val + p.val, hr⟩ q ?_ ?_).symm
  · show win1_5.index t (0 : Fin 2) * 5000 + 1 * p.val = 5000 * t.val + p.val; omega
  · show win1_5.index t (1 : Fin 2) * 2 + 1 * q.val = q.val; omega

/-- An index of the result array is in point t's block iff each coordinate is in the block's range on its axis. -/
theorem mem_block (t : Fin cfg1.N) (i : S100000x2.Idx) :
    i ∈ ((cfg1.win 5).blk t).view.set ↔ ∀ a : Fin 2, win1_5.index t a * S5000x2.size a ≤ (i a).val ∧ (i a).val < win1_5.index t a * S5000x2.size a + S5000x2.size a := by
  show i ∈ ((View.whole main_v39).slice (win1_5.rect t)).set ↔ _
  rw [View.set_slice_whole, Rect.mem_set_unit]
  exact Iff.rfl

/-- Row r is in the block of point r / 5000: the blocks tile the array. -/
theorem cover (i : S100000x2.Idx) : ∃ t : Fin cfg1.N, (cfg1.win 5).flush t = true ∧ i ∈ ((cfg1.win 5).blk t).view.set := by
  have hi0 : (i 0).val < 100000 := (i 0).isLt
  have hi1 : (i 1).val < 2 := (i 1).isLt
  obtain ⟨t, ht⟩ : ∃ t : Fin cfg1.N, t.val = (i 0).val / 5000 := ⟨⟨(i 0).val / 5000, by show _ < 20; omega⟩, rfl⟩
  obtain ⟨-, -, -, -, -, -, -, -, -, e0, e1⟩ := index_facts t
  refine ⟨t, flush1_5 t, ?_⟩
  rw [mem_block]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 2 ≤ (i 1).val ∧ (i 1).val < win1_5.index t (1 : Fin 2) * 2 + 2; omega

/-- THE ARRAY after the region: the second layer of the operand arrays as the region found them. -/
theorem final (c : Dev nD) : (dat1 V c).arrAt 5 cfg1.N = result V c :=
  (dat1 V c).arrAt_eq_of_cover 5 (result V c) (fun t _ => flushed_eq V c t) cover

end Cert.KernelIdeal.Region1

end
-- ==== Proof.Fold.lean ====
/-
  The kernel program's result buffer after the run, as a function of the launch memory.

  Between the launch and the return the TensorCore's buffers pass four boundaries: after the first stretch of host
  operations (which computes the neighbour means of the features), after the first pallas_call (which leaves the
  hidden activations), after the second stretch (the neighbour means of the hidden activations, by the same chain of
  operations), after the second pallas_call (which leaves the result). Each stretch is read once, over an arbitrary
  valuation: the one buffer it computes is the aggregation of three buffers it reads, and the buffers it does not
  write are kept. Each region's output is its layer of the region's entry contents. Walking back from the result
  gives the second layer over the first, each with its aggregation, of the nine arguments.
-/
import proofs.«135674_j43937515438448_1_alg».proof.Proof.Region0
import proofs.«135674_j43937515438448_1_alg».proof.Proof.Region1
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.LayerSpec

/-- The neighbour-mean aggregation of an array of node rows along the edges (src, dst), as the kernel's host code
    computes it: negative source indices wrapped by the number of nodes, the rows gathered, scatter-added at the
    destinations into zeros, and divided by the in-degree (ones scatter-added likewise) clamped below at one. -/
def aggregate (x : (⟨S100000x128, .f32⟩ : BufTy).Contents (Elt Ideal)) (src dst : (⟨S1600000, .i32⟩ : BufTy).Contents (Elt Ideal)) :
    (⟨S100000x128, .f32⟩ : BufTy).Contents (Elt Ideal) :=
  Host.divf (F := Ideal)
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf (F := Ideal)
          (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S100000 ![] bcast_S_S100000 (constant (F := Ideal) S_ .f32 0x3F800000#32)))))

/-! ## The two host stretches, each over an arbitrary valuation -/

section Stretches
variable (Wv : Valuation τ sig (Elt Ideal))

set_option maxHeartbeats 4000000 in
/-- The first stretch leaves the aggregation of the features in the buffer the first pallas_call reads as its
    neighbour means. -/
theorem means_of_features :
    StableHlo.after (hostOps0 (F := Ideal)) Wv (Proc.devRef .tc main_v18)
      = aggregate (Wv (Proc.devRef .tc main_arg0)) (Wv (Proc.devRef .tc main_arg1)) (Wv (Proc.devRef .tc main_arg2)) := by
  dsimp only [hostOps0]
  after_results_simp
  rfl

set_option maxHeartbeats 4000000 in
/-- The second stretch leaves the aggregation of the first pallas_call's output in the buffer the second reads as its
    neighbour means. -/
theorem means_of_hidden :
    StableHlo.after (hostOps1 (F := Ideal)) Wv (Proc.devRef .tc main_v38)
      = aggregate (Wv (Proc.devRef .tc main_v19)) (Wv (Proc.devRef .tc main_arg1)) (Wv (Proc.devRef .tc main_arg2)) := by
  dsimp only [hostOps1]
  after_results_simp
  rfl

theorem kept0_arg0 : StableHlo.after (hostOps0 (F := Ideal)) Wv (Proc.devRef .tc main_arg0) = Wv (Proc.devRef .tc main_arg0) := by
  dsimp only [hostOps0]; after_results
theorem kept0_arg1 : StableHlo.after (hostOps0 (F := Ideal)) Wv (Proc.devRef .tc main_arg1) = Wv (Proc.devRef .tc main_arg1) := by
  dsimp only [hostOps0]; after_results
theorem kept0_arg2 : StableHlo.after (hostOps0 (F := Ideal)) Wv (Proc.devRef .tc main_arg2) = Wv (Proc.devRef .tc main_arg2) := by
  dsimp only [hostOps0]; after_results
theorem kept0_arg3 : StableHlo.after (hostOps0 (F := Ideal)) Wv (Proc.devRef .tc main_arg3) = Wv (Proc.devRef .tc main_arg3) := by
  dsimp only [hostOps0]; after_results
theorem kept0_arg4 : StableHlo.after (hostOps0 (F := Ideal)) Wv (Proc.devRef .tc main_arg4) = Wv (Proc.devRef .tc main_arg4) := by
  dsimp only [hostOps0]; after_results
theorem kept0_arg5 : StableHlo.after (hostOps0 (F := Ideal)) Wv (Proc.devRef .tc main_arg5) = Wv (Proc.devRef .tc main_arg5) := by
  dsimp only [hostOps0]; after_results
theorem kept0_arg6 : StableHlo.after (hostOps0 (F := Ideal)) Wv (Proc.devRef .tc main_arg6) = Wv (Proc.devRef .tc main_arg6) := by
  dsimp only [hostOps0]; after_results
theorem kept0_arg7 : StableHlo.after (hostOps0 (F := Ideal)) Wv (Proc.devRef .tc main_arg7) = Wv (Proc.devRef .tc main_arg7) := by
  dsimp only [hostOps0]; after_results
theorem kept0_arg8 : StableHlo.after (hostOps0 (F := Ideal)) Wv (Proc.devRef .tc main_arg8) = Wv (Proc.devRef .tc main_arg8) := by
  dsimp only [hostOps0]; after_results

theorem kept1_hidden : StableHlo.after (hostOps1 (F := Ideal)) Wv (Proc.devRef .tc main_v19) = Wv (Proc.devRef .tc main_v19) := by
  dsimp only [hostOps1]; after_results
theorem kept1_arg6 : StableHlo.after (hostOps1 (F := Ideal)) Wv (Proc.devRef .tc main_arg6) = Wv (Proc.devRef .tc main_arg6) := by
  dsimp only [hostOps1]; after_results
theorem kept1_arg7 : StableHlo.after (hostOps1 (F := Ideal)) Wv (Proc.devRef .tc main_arg7) = Wv (Proc.devRef .tc main_arg7) := by
  dsimp only [hostOps1]; after_results
theorem kept1_arg8 : StableHlo.after (hostOps1 (F := Ideal)) Wv (Proc.devRef .tc main_arg8) = Wv (Proc.devRef .tc main_arg8) := by
  dsimp only [hostOps1]; after_results

end Stretches

/-! ## The boundaries, walked back -/

variable (m : (ℓ : Loc nD τ sig) → Buf (Elt Ideal) ℓ) (ρ : Dev nD → PrngReg)

/-- The hidden activations as a function of the launch memory. -/
abbrev hiddenOf (c : Dev nD) : (⟨S100000x128, .f32⟩ : BufTy).Contents (Elt Ideal) :=
  hidden (m ((c.tc : Thread nD τ).loc main_arg0))
    (aggregate (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))

/-- At the first region's exit its output buffer holds the hidden activations. -/
theorem hidden_at_exit (c : Dev nD) : W2 m ρ c (Proc.devRef .tc main_v19) = hiddenOf m c := by
  refine (W2_arr m ρ c 5).trans ((Region0.final (V1 m ρ) c).trans ?_)
  show hidden (W1 m ρ c (Proc.devRef .tc main_arg0)) (W1 m ρ c (Proc.devRef .tc main_v18)) (W1 m ρ c (Proc.devRef .tc main_arg3))
    (W1 m ρ c (Proc.devRef .tc main_arg4)) (W1 m ρ c (Proc.devRef .tc main_arg5)) = _
  rw [show W1 m ρ c (Proc.devRef .tc main_v18) = _ from means_of_features (W0 m ρ c),
    show W1 m ρ c (Proc.devRef .tc main_arg0) = _ from kept0_arg0 (W0 m ρ c),
    show W1 m ρ c (Proc.devRef .tc main_arg3) = _ from kept0_arg3 (W0 m ρ c),
    show W1 m ρ c (Proc.devRef .tc main_arg4) = _ from kept0_arg4 (W0 m ρ c),
    show W1 m ρ c (Proc.devRef .tc main_arg5) = _ from kept0_arg5 (W0 m ρ c)]

/-- An argument the first region does not have among its arrays is, at the region's exit, as launched. -/
theorem arg1_at_exit (c : Dev nD) : W2 m ρ c (Proc.devRef .tc main_arg1) = m ((c.tc : Thread nD τ).loc main_arg1) :=
  (W2_of_ne m ρ c main_arg1 (by decide)).trans (kept0_arg1 (W0 m ρ c))
theorem arg2_at_exit (c : Dev nD) : W2 m ρ c (Proc.devRef .tc main_arg2) = m ((c.tc : Thread nD τ).loc main_arg2) :=
  (W2_of_ne m ρ c main_arg2 (by decide)).trans (kept0_arg2 (W0 m ρ c))
theorem arg6_at_exit (c : Dev nD) : W2 m ρ c (Proc.devRef .tc main_arg6) = m ((c.tc : Thread nD τ).loc main_arg6) :=
  (W2_of_ne m ρ c main_arg6 (by decide)).trans (kept0_arg6 (W0 m ρ c))
theorem arg7_at_exit (c : Dev nD) : W2 m ρ c (Proc.devRef .tc main_arg7) = m ((c.tc : Thread nD τ).loc main_arg7) :=
  (W2_of_ne m ρ c main_arg7 (by decide)).trans (kept0_arg7 (W0 m ρ c))
theorem arg8_at_exit (c : Dev nD) : W2 m ρ c (Proc.devRef .tc main_arg8) = m ((c.tc : Thread nD τ).loc main_arg8) :=
  (W2_of_ne m ρ c main_arg8 (by decide)).trans (kept0_arg8 (W0 m ρ c))

/-- THE RESULT: at the last boundary the result buffer holds the second layer of the hidden activations, their
    aggregation, and the last three arguments. -/
theorem result_value (c : Dev nD) :
    W4 m ρ c (Proc.devRef .tc main_v39)
      = logits (hiddenOf m c)
          (aggregate (hiddenOf m c) (m ((c.tc : Thread nD τ).loc main_arg1)) (m ((c.tc : Thread nD τ).loc main_arg2)))
          (m ((c.tc : Thread nD τ).loc main_arg6)) (m ((c.tc : Thread nD τ).loc main_arg7)) (m ((c.tc : Thread nD τ).loc main_arg8)) := by
  refine (W4_arr m ρ c 5).trans ((Region1.final (V3 m ρ) c).trans ?_)
  show logits (W3 m ρ c (Proc.devRef .tc main_v19)) (W3 m ρ c (Proc.devRef .tc main_v38)) (W3 m ρ c (Proc.devRef .tc main_arg6))
    (W3 m ρ c (Proc.devRef .tc main_arg7)) (W3 m ρ c (Proc.devRef .tc main_arg8)) = _
  rw [show W3 m ρ c (Proc.devRef .tc main_v38) = _ from means_of_hidden (W2 m ρ c),
    show W3 m ρ c (Proc.devRef .tc main_v19) = _ from kept1_hidden (W2 m ρ c),
    show W3 m ρ c (Proc.devRef .tc main_arg6) = _ from kept1_arg6 (W2 m ρ c),
    show W3 m ρ c (Proc.devRef .tc main_arg7) = _ from kept1_arg7 (W2 m ρ c),
    show W3 m ρ c (Proc.devRef .tc main_arg8) = _ from kept1_arg8 (W2 m ρ c),
    hidden_at_exit m ρ c, arg1_at_exit m ρ c, arg2_at_exit m ρ c, arg6_at_exit m ρ c, arg7_at_exit m ρ c, arg8_at_exit m ρ c]

end Cert.KernelIdeal.Fold

end
-- ==== Proof.RefSide.lean ====
/-
  The reference's result, as the two layers over the shared aggregation.

  The reference's run ends with its result at one composed term of the arguments; read one operation at a time, its
  hidden activations are `max ((X·W3 + A(X)·W4) + b5) 0` and its result `(H·W6 + A(H)·W7) + b8`, where `A` — gather the
  rows at the (wrapped) source indices, scatter-add them at the destinations, divide by the clamped in-degree — is one
  and the same chain of host operations applied first to the features and then to the hidden activations. `A` is kept
  closed: the reference's own stage for the first aggregation, as a function of the array it gathers from, names it.
  Each dot product is read at an index as its 128-term sum, each bias through its two broadcasts.
-/
import proofs.«135674_j43937515438448_1_alg».proof.Proof.Gen.ReferenceIdeal.Read
import proofs.«135674_j43937515438448_1_alg».proof.Proof.Spec

noncomputable section

namespace Cert.ReferenceIdeal.Layers

open Cert.ReferenceIdeal Cert.ReferenceIdeal.Gen Cert.ReferenceIdeal.Read Idealize.ShloMosaic Idealize.ShloMosaic.TcCoe Idealize.SL.Sem
open Idealize.ShloMosaic.ValueIdx Cert.LayerSpec

/-- The neighbour-mean aggregation of an array of node rows along the edges (src, dst), as the reference computes it. -/
abbrev aggregate (x : (⟨S100000x128, .f32⟩ : BufTy).Contents (Elt Ideal)) (src dst : (⟨S1600000, .i32⟩ : BufTy).Contents (Elt Ideal)) :
    (⟨S100000x128, .f32⟩ : BufTy).Contents (Elt Ideal) :=
  val_main_v18 (F := Ideal) x src dst

/-- The hidden activations are the first layer of the features and their aggregation. -/
theorem hidden_eq (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal)) :
    val_main_v25 (F := Ideal) x0 x1 x2 x3 x4 x5 = hidden x0 (aggregate x0 x1 x2) x3 x4 x5 := by
  funext i
  rw [val_main_v25_apply, val_main_v24_apply, val_main_v21_apply, val_main_v19_apply, val_main_v20_apply, val_main_v23_apply,
    val_main_v22_apply, val_main_call0_v0_apply, val_main_call0_cst_apply]
  rw [hidden_at x0 (aggregate x0 x1 x2) x3 x4 x5 i ⟨(i 0).val, (i 0).isLt⟩ ⟨(i 1).val, (i 1).isLt⟩ rfl rfl]
  unfold hiddenEntry
  have e1 : ∀ k : Fin 128, lidx_main_v19 i k = ix2 (⟨(i 0).val, (i 0).isLt⟩ : Fin 100000) k := fun k => funext fun a => by
    match a with
    | ⟨0, _⟩ => rfl
    | ⟨1, _⟩ => rfl
  have e2 : ∀ k : Fin 128, ridx_main_v19 i k = ix2 k (⟨(i 1).val, (i 1).isLt⟩ : Fin 128) := fun k => funext fun a => by
    match a with
    | ⟨0, _⟩ => rfl
    | ⟨1, _⟩ => rfl
  have e3 : ∀ k : Fin 128, lidx_main_v20 i k = ix2 (⟨(i 0).val, (i 0).isLt⟩ : Fin 100000) k := fun k => funext fun a => by
    match a with
    | ⟨0, _⟩ => rfl
    | ⟨1, _⟩ => rfl
  have e4 : ∀ k : Fin 128, ridx_main_v20 i k = ix2 k (⟨(i 1).val, (i 1).isLt⟩ : Fin 128) := fun k => funext fun a => by
    match a with
    | ⟨0, _⟩ => rfl
    | ⟨1, _⟩ => rfl
  have e5 : idx_main_v22 (idx_main_v23 i) = ix1 (⟨(i 1).val, (i 1).isLt⟩ : Fin 128) := funext fun a => by
    match a with
    | ⟨0, _⟩ => rfl
  simp only [e1, e2, e3, e4, e5]
  rfl

/-- The second aggregation is the same chain of operations, applied to the hidden activations. -/
theorem aggregate_hidden (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal)) :
    val_main_v44 (F := Ideal) x0 x1 x2 x3 x4 x5 = aggregate (val_main_v25 (F := Ideal) x0 x1 x2 x3 x4 x5) x1 x2 := rfl

/-- The result is the second layer of the hidden activations and their aggregation. -/
theorem logits_eq (x0 : (⟨S100000x128, .f32⟩ : BufTy).Contents (Elt Ideal)) (x1 x2 : (⟨S1600000, .i32⟩ : BufTy).Contents (Elt Ideal))
    (x3 x4 : (⟨S128x128, .f32⟩ : BufTy).Contents (Elt Ideal)) (x5 : (⟨S128, .f32⟩ : BufTy).Contents (Elt Ideal))
    (x6 x7 : (⟨S128x2, .f32⟩ : BufTy).Contents (Elt Ideal)) (x8 : (⟨S2, .f32⟩ : BufTy).Contents (Elt Ideal)) :
    val_main_v50 (F := Ideal) x0 x1 x2 x3 x4 x5 x6 x7 x8
      = logits (val_main_v25 (F := Ideal) x0 x1 x2 x3 x4 x5) (val_main_v44 (F := Ideal) x0 x1 x2 x3 x4 x5) x6 x7 x8 := by
  funext i
  rw [val_main_v50_apply, val_main_v47_apply, val_main_v45_apply, val_main_v46_apply, val_main_v49_apply, val_main_v48_apply]
  rw [logits_at _ _ x6 x7 x8 i ⟨(i 0).val, (i 0).isLt⟩ ⟨(i 1).val, (i 1).isLt⟩ rfl rfl]
  unfold logitEntry
  have e1 : ∀ k : Fin 128, lidx_main_v45 i k = ix2 (⟨(i 0).val, (i 0).isLt⟩ : Fin 100000) k := fun k => funext fun a => by
    match a with
    | ⟨0, _⟩ => rfl
    | ⟨1, _⟩ => rfl
  have e2 : ∀ k : Fin 128, ridx_main_v45 i k = ix2 k (⟨(i 1).val, (i 1).isLt⟩ : Fin 2) := fun k => funext fun a => by
    match a with
    | ⟨0, _⟩ => rfl
    | ⟨1, _⟩ => rfl
  have e3 : ∀ k : Fin 128, lidx_main_v46 i k = ix2 (⟨(i 0).val, (i 0).isLt⟩ : Fin 100000) k := fun k => funext fun a => by
    match a with
    | ⟨0, _⟩ => rfl
    | ⟨1, _⟩ => rfl
  have e4 : ∀ k : Fin 128, ridx_main_v46 i k = ix2 k (⟨(i 1).val, (i 1).isLt⟩ : Fin 2) := fun k => funext fun a => by
    match a with
    | ⟨0, _⟩ => rfl
    | ⟨1, _⟩ => rfl
  have e5 : idx_main_v48 (idx_main_v49 i) = ix1 (⟨(i 1).val, (i 1).isLt⟩ : Fin 2) := funext fun a => by
    match a with
    | ⟨0, _⟩ => rfl
  simp only [e1, e2, e3, e4, e5]
  rfl

/-- The run's result term: the second layer over the first, each with its aggregation. -/
theorem result_eq (m : (ℓ : Loc nD τ sig) → Buf (Elt Ideal) ℓ) (c : Dev nD) :
    Cert.ReferenceIdeal.Value.res_main_v50 (F := Ideal) m c
      = logits
          (hidden (m ((c.tc : Thread nD τ).loc main_arg0))
            (aggregate (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4)) (m ((c.tc : Thread nD τ).loc main_arg5)))
          (aggregate
            (hidden (m ((c.tc : Thread nD τ).loc main_arg0))
              (aggregate (m ((c.tc : Thread nD τ).loc main_arg0)) (m ((c.tc : Thread nD τ).loc main_arg1)) (m ((c.tc : Thread nD τ).loc main_arg2)))
              (m ((c.tc : Thread nD τ).loc main_arg3)) (m ((c.tc : Thread nD τ).loc main_arg4)) (m ((c.tc : Thread nD τ).loc main_arg5)))
            (m ((c.tc : Thread nD τ).loc main_arg1)) (m ((c.tc : Thread nD τ).loc main_arg2)))
          (m ((c.tc : Thread nD τ).loc main_arg6)) (m ((c.tc : Thread nD τ).loc main_arg7)) (m ((c.tc : Thread nD τ).loc main_arg8)) := by
  rw [val_main_v50_eq, logits_eq, aggregate_hidden, hidden_eq]

end Cert.ReferenceIdeal.Layers

end
-- ==== Proof.lean ====
/-
  A two-layer mean-aggregation graph network on 100000 nodes and 1600000 edges, its dense per-node combine done by two
  Pallas kernels, against the plain jnp reference.

  Both programs compute, for node features X [100000,128], edge lists (src, dst), weights and biases,

      H   = max ((X·W_self1 + A(X)·W_neigh1) + b1) 0          (hidden activations, [100000,128])
      out = (H·W_self2 + A(H)·W_neigh2) + b2                  (the result, [100000,2])

  where A is the neighbour mean: gather the rows at the source indices, scatter-add them at the destinations, divide by
  the in-degree clamped below at one. A is the SAME chain of host operations in both programs (the kernel program keeps
  it in plain jax around its two pallas_calls), so it is carried as one closed function of the array it aggregates and
  is never opened. What differs is the combine: the reference uses two `dot_general`s per layer on the whole arrays, the
  kernel program a pallas_call per layer over twenty row blocks of 5000 nodes, each point multiplying its blocks on the
  matrix unit in bf16 (a change of format: the identity on extended reals) into zero accumulators. At an index both are
  the same two 128-term sums of products in the same order plus the bias, so the equality needs no law of the extended
  reals and no finiteness of the inputs: the precondition is not opened.

  The pieces: the layers as index-by-index functions (Proof/Spec.lean); each kernel body's payload at an index
  (Proof/Body0.lean, Proof/Body1.lean); each pallas_call's output array as its layer of the region's entry contents, by
  the blocks tiling the rows (Proof/Region0.lean, Proof/Region1.lean); the program's run with its result buffer named
  (Proof/ResultRun.lean) and that buffer walked back through the two host stretches and the two regions to the launch
  memory (Proof/Fold.lean); the reference's run read one operation at a time down to the same composite
  (Proof/RefSide.lean). The three frames are the generated ones; no operation was rewritten by the ideal pass, so
  `preserves` is trivial.
-/
import proofs.«135674_j43937515438448_1_alg».proof.Defs
import proofs.«135674_j43937515438448_1_alg».proof.Proof.Gen.Kernel
import proofs.«135674_j43937515438448_1_alg».proof.Proof.Gen.Kernel.Frame
import proofs.«135674_j43937515438448_1_alg».proof.Proof.Gen.KernelIdeal
import proofs.«135674_j43937515438448_1_alg».proof.Proof.Gen.KernelIdeal.Frame
import proofs.«135674_j43937515438448_1_alg».proof.Proof.Gen.ReferenceIdeal
import proofs.«135674_j43937515438448_1_alg».proof.Proof.Gen.ReferenceIdeal.Run
import proofs.«135674_j43937515438448_1_alg».proof.Proof.Gen.Pre_finite_inputs
import proofs.«135674_j43937515438448_1_alg».proof.Proof.ResultRun
import proofs.«135674_j43937515438448_1_alg».proof.Proof.Fold
import proofs.«135674_j43937515438448_1_alg».proof.Proof.RefSide
import Idealize.ShloMosaic.Adequacy
import Idealize.ShloMosaic.Init

noncomputable section

namespace Cert.Proof

open Idealize.ShloMosaic Idealize.ShloMosaic.TcCoe Idealize.SL.Sem

/-- The neighbour-mean aggregation is one function in the two programs: the same operations over the same records
    and constants, spelt once in each program's vocabulary. -/
theorem aggregate_eq (x : (⟨Cert.KernelIdeal.S100000x128, .f32⟩ : BufTy).Contents (Elt Ideal))
    (src dst : (⟨Cert.KernelIdeal.S1600000, .i32⟩ : BufTy).Contents (Elt Ideal)) :
    Cert.KernelIdeal.Fold.aggregate x src dst = Cert.ReferenceIdeal.Layers.aggregate x src dst := rfl

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the second layer over the first, each with its aggregation, of arguments that agree. -/
theorem algebraic : Cert.algebraic_KernelIdeal_ReferenceIdeal := by
  intro m ρ m' ρ' _ hagree
  refine ⟨fun c => Cert.KernelIdeal.Gen.W4 m ρ c (Proc.devRef .tc Cert.KernelIdeal.main_v39),
    Cert.KernelIdeal.ResultRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  beta_reduce
  rw [Cert.ReferenceIdeal.Layers.result_eq, Cert.KernelIdeal.Fold.result_value, h0, h1, h2, h3, h4, h5, h6, h7, h8]
  simp only [Cert.KernelIdeal.Fold.hiddenOf, aggregate_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
